-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : IVec S16777216 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  main_v3
-- ==== Kernel.lean ====
abbrev S16777216 : Shape := ⟨1, ![16777216]⟩
abbrev S131072x128 : Shape := ⟨2, ![131072, 128]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 13
  | .vmem => 8
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S131072x128, .f32⟩
  | .hbm, ⟨3, _⟩ => ⟨S131072x128, .i32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .i32⟩
  | .local _ .vmem, ⟨3, _⟩ => ⟨S4096x128, .i32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v41 : BitVec 1 := Scalar.cmpi .eq arg0 c31_i32
  let v42 : BitVec 32 := Scalar.extui v41
  let c0_i32_18 : BitVec 32 := 0#32
  let v43 : BitVec 1 := Scalar.cmpi .ne v42 c0_i32_18
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S16777216_S131072x128 : S16777216.ShapeCasts S131072x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  natLt_1_32 : 1 < 32
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .i32 = 32 ∨ (Rect.block (s := S131072x128) S4096x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S_, .i32⟩
  | .hbm, ⟨3, _⟩ => ⟨S16777216, .i32⟩
  | .hbm, ⟨4, _⟩ => ⟨S16777216, .i1⟩
  | .hbm, ⟨5, _⟩ => ⟨S16777216, .f32⟩
  | .hbm, ⟨6, _⟩ => ⟨S_, .f32⟩
  | .hbm, ⟨7, _⟩ => ⟨S16777216, .f32⟩
  | .hbm, ⟨8, _⟩ => ⟨S16777216, .f32⟩
  | .hbm, ⟨9, _⟩ => ⟨S_, .f32⟩
  | .hbm, ⟨10, _⟩ => ⟨S16777216, .f32⟩
  | .hbm, ⟨11, _⟩ => ⟨S16777216, .f32⟩
  | .hbm, ⟨12, _⟩ => ⟨S16777216, .f32⟩
  | .hbm, ⟨13, _⟩ => ⟨S_, .f32⟩
  | .hbm, ⟨14, _⟩ => ⟨S16777216, .f32⟩
  | .hbm, ⟨15, _⟩ => ⟨S16777216, .f32⟩
  | .hbm, ⟨16, _⟩ => ⟨S16777216, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S16777216, .f32⟩
  | .hbm, ⟨23, _⟩ => ⟨S16777216, .f32⟩
  | .hbm, ⟨24, _⟩ => ⟨S16777216, .i1⟩
  | .hbm, ⟨25, _⟩ => ⟨S16777216, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  reducesTo_S16777216_S_d0 : S16777216.ReducesTo [0] S_
  h_S_ : 0 < S_.numel

variable [Facts₀]

class Facts : Prop extends Facts₀ where

variable [Facts]
-- ==== Proof.Pieces.lean ====
/-
  What one run of the kernel body leaves in its two accumulators and, at the last grid point, in its two output
  blocks, as values of the body's arithmetic. The body keeps a loss accumulator and a hit accumulator, each a
  1 × 1 buffer. At the first grid point it stores zero into each and then adds the block's total; at every other point it adds the
  block's total to what the point before left; at the last point it also copies both accumulators, as just updated, to the
  output blocks. Each statement below reads the body's stores back: the last store that covers the one cell wins, and
  a load that follows a store in the same run sees the stored value.
-/
import proofs.«171427_j77489799954598_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point, loss accumulator: zero is stored, read back, and the block's total added to it. -/
theorem lossAcc_first (c : Dev nD) (i : grid0.Coords) (a1 : Memref sig .tc .vmem S4096x128 .f32) (h1 : a1.IsWhole) (a2 : Memref sig .tc .vmem S4096x128 .i32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i) (x0 : Vec F S4096x128 .f32) (x1 : Vec F S4096x128 .i32) :
    sout0_A_0 c i a1 h1 a2 h2 a3 h3 a4 h4 a5 h5 a6 h6 hc0 hc1 x0 x1 = k0_pay6 x0 x1 (k0_pay2 (F := F)) := by
  unfold sout0_A_0
  rw [View.read_writes_eq_canon _ _ _ (scover0_A_0 c i a1 h1 a2 h2 a3 h3 a4 h4 a5 h5 a6 h6 hc0 hc1 x0 x1)]
  unfold kernelRun0_A
  dsimp only
  sl_unfold_words
  rw [View.canon_cons_unit_zero (S := S1x1) hz]
  simp only [View.readCov_unit_zero (S := S1x1) _ hz, View.readAt_eq_ld, h1.read_unread, h2.read_unread, h5.read_unread, h6.read_unread,
    View.ld_unit_zero (S := S4096x128) hz, View.ld_unit_zero (S := S1x1) hz]

/-- First point, hit accumulator: zero is stored, read back, and the block's hit count added to it. -/
theorem hitAcc_first (c : Dev nD) (i : grid0.Coords) (a1 : Memref sig .tc .vmem S4096x128 .f32) (h1 : a1.IsWhole) (a2 : Memref sig .tc .vmem S4096x128 .i32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i) (x0 : Vec F S4096x128 .f32) (x1 : Vec F S4096x128 .i32) :
    sout0_A_1 c i a1 h1 a2 h2 a3 h3 a4 h4 a5 h5 a6 h6 hc0 hc1 x0 x1 = k0_pay1 (k0_pay7 x0 x1) (k0_pay3 (F := F)) := by
  unfold sout0_A_1
  rw [View.read_writes_eq_canon _ _ _ (scover0_A_1 c i a1 h1 a2 h2 a3 h3 a4 h4 a5 h5 a6 h6 hc0 hc1 x0 x1)]
  unfold kernelRun0_A
  dsimp only
  sl_unfold_words
  rw [View.canon_cons_unit_zero (S := S1x1) hz]
  simp only [View.readCov_unit_zero (S := S1x1) _ hz, View.readAt_eq_ld, h1.read_unread, h2.read_unread, h5.read_unread, h6.read_unread,
    View.ld_unit_zero (S := S4096x128) hz, View.ld_unit_zero (S := S1x1) hz]

/-- A middle point, loss accumulator: the block's total added to what the point before left. -/
theorem lossAcc_mid (c : Dev nD) (i : grid0.Coords) (a1 : Memref sig .tc .vmem S4096x128 .f32) (h1 : a1.IsWhole) (a2 : Memref sig .tc .vmem S4096x128 .i32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i) (x0 : Vec F S4096x128 .f32) (x1 : Vec F S4096x128 .i32) (xs0 xs1 : Vec F S1x1 .f32) :
    sout0_B_0 c i a1 h1 a2 h2 a3 h3 a4 h4 a5 h5 a6 h6 hc0 hc1 x0 x1 xs0 xs1 = k0_pay6 x0 x1 xs0 := by
  unfold sout0_B_0
  rw [View.read_writes_eq_canon _ _ _ (scover0_B_0 c i a1 h1 a2 h2 a3 h3 a4 h4 a5 h5 a6 h6 hc0 hc1 x0 x1 xs0 xs1)]
  unfold kernelRun0_B
  dsimp only
  sl_unfold_words
  rw [View.canon_unit_zero hz]
  simp only [View.readCov_unit_zero (S := S1x1) _ hz, View.readAt_eq_ld, h1.read_unread, h2.read_unread, h5.read_unread, h6.read_unread,
    View.ld_unit_zero (S := S4096x128) hz, View.ld_unit_zero (S := S1x1) hz]

/-- A middle point, hit accumulator. -/
theorem hitAcc_mid (c : Dev nD) (i : grid0.Coords) (a1 : Memref sig .tc .vmem S4096x128 .f32) (h1 : a1.IsWhole) (a2 : Memref sig .tc .vmem S4096x128 .i32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i) (x0 : Vec F S4096x128 .f32) (x1 : Vec F S4096x128 .i32) (xs0 xs1 : Vec F S1x1 .f32) :
    sout0_B_1 c i a1 h1 a2 h2 a3 h3 a4 h4 a5 h5 a6 h6 hc0 hc1 x0 x1 xs0 xs1 = k0_pay1 (k0_pay7 x0 x1) xs1 := by
  unfold sout0_B_1
  rw [View.read_writes_eq_canon _ _ _ (scover0_B_1 c i a1 h1 a2 h2 a3 h3 a4 h4 a5 h5 a6 h6 hc0 hc1 x0 x1 xs0 xs1)]
  unfold kernelRun0_B
  dsimp only
  sl_unfold_words
  rw [View.canon_unit_zero hz]
  simp only [View.readCov_unit_zero (S := S1x1) _ hz, View.readAt_eq_ld, h1.read_unread, h2.read_unread, h5.read_unread, h6.read_unread,
    View.ld_unit_zero (S := S4096x128) hz, View.ld_unit_zero (S := S1x1) hz]

/-- The last point, loss accumulator: as at a middle point. -/
theorem lossAcc_last (c : Dev nD) (i : grid0.Coords) (a1 : Memref sig .tc .vmem S4096x128 .f32) (h1 : a1.IsWhole) (a2 : Memref sig .tc .vmem S4096x128 .i32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i) (x0 : Vec F S4096x128 .f32) (x1 : Vec F S4096x128 .i32) (xs0 xs1 : Vec F S1x1 .f32) :
    sout0_C_0 c i a1 h1 a2 h2 a3 h3 a4 h4 a5 h5 a6 h6 hc0 hc1 x0 x1 xs0 xs1 = k0_pay6 x0 x1 xs0 := by
  unfold sout0_C_0
  rw [View.read_writes_eq_canon _ _ _ (scover0_C_0 c i a1 h1 a2 h2 a3 h3 a4 h4 a5 h5 a6 h6 hc0 hc1 x0 x1 xs0 xs1)]
  unfold kernelRun0_C
  dsimp only
  sl_unfold_words
  rw [View.canon_unit_zero hz]
  simp only [View.readCov_unit_zero (S := S1x1) _ hz, View.readAt_eq_ld, h1.read_unread, h2.read_unread, h5.read_unread, h6.read_unread,
    View.ld_unit_zero (S := S4096x128) hz, View.ld_unit_zero (S := S1x1) hz]

/-- The last point, hit accumulator. -/
theorem hitAcc_last (c : Dev nD) (i : grid0.Coords) (a1 : Memref sig .tc .vmem S4096x128 .f32) (h1 : a1.IsWhole) (a2 : Memref sig .tc .vmem S4096x128 .i32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i) (x0 : Vec F S4096x128 .f32) (x1 : Vec F S4096x128 .i32) (xs0 xs1 : Vec F S1x1 .f32) :
    sout0_C_1 c i a1 h1 a2 h2 a3 h3 a4 h4 a5 h5 a6 h6 hc0 hc1 x0 x1 xs0 xs1 = k0_pay1 (k0_pay7 x0 x1) xs1 := by
  unfold sout0_C_1
  rw [View.read_writes_eq_canon _ _ _ (scover0_C_1 c i a1 h1 a2 h2 a3 h3 a4 h4 a5 h5 a6 h6 hc0 hc1 x0 x1 xs0 xs1)]
  unfold kernelRun0_C
  dsimp only
  sl_unfold_words
  rw [View.canon_unit_zero hz]
  simp only [View.readCov_unit_zero (S := S1x1) _ hz, View.readAt_eq_ld, h1.read_unread, h2.read_unread, h5.read_unread, h6.read_unread,
    View.ld_unit_zero (S := S4096x128) hz, View.ld_unit_zero (S := S1x1) hz]

/-- The last point, loss output block: the loss accumulator as just updated. -/
theorem lossOut_last (c : Dev nD) (i : grid0.Coords) (a1 : Memref sig .tc .vmem S4096x128 .f32) (h1 : a1.IsWhole) (a2 : Memref sig .tc .vmem S4096x128 .i32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i) (x0 : Vec F S4096x128 .f32) (x1 : Vec F S4096x128 .i32) (xs0 xs1 : Vec F S1x1 .f32) :
    out0_C_2 c i a1 h1 a2 h2 a3 h3 a4 h4 a5 h5 a6 h6 hc0 hc1 x0 x1 xs0 xs1 = k0_pay6 x0 x1 xs0 := by
  unfold out0_C_2
  rw [View.read_writes_eq_canon _ _ _ (cover0_C_2 c i a1 h1 a2 h2 a3 h3 a4 h4 a5 h5 a6 h6 hc0 hc1 x0 x1 xs0 xs1)]
  unfold kernelRun0_C
  dsimp only
  sl_unfold_words
  rw [View.canon_unit_zero hz]
  simp only [View.readCov_unit_zero (S := S1x1) _ hz, View.readAt_eq_ld, h1.read_unread, h2.read_unread, h5.read_unread, h6.read_unread,
    View.ld_unit_zero (S := S4096x128) hz, View.ld_unit_zero (S := S1x1) hz]

/-- The last point, hit output block: the hit accumulator as just updated. -/
theorem hitOut_last (c : Dev nD) (i : grid0.Coords) (a1 : Memref sig .tc .vmem S4096x128 .f32) (h1 : a1.IsWhole) (a2 : Memref sig .tc .vmem S4096x128 .i32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i) (x0 : Vec F S4096x128 .f32) (x1 : Vec F S4096x128 .i32) (xs0 xs1 : Vec F S1x1 .f32) :
    out0_C_3 c i a1 h1 a2 h2 a3 h3 a4 h4 a5 h5 a6 h6 hc0 hc1 x0 x1 xs0 xs1 = k0_pay1 (k0_pay7 x0 x1) xs1 := by
  unfold out0_C_3
  rw [View.read_writes_eq_canon _ _ _ (cover0_C_3 c i a1 h1 a2 h2 a3 h3 a4 h4 a5 h5 a6 h6 hc0 hc1 x0 x1 xs0 xs1)]
  unfold kernelRun0_C
  dsimp only
  sl_unfold_words
  rw [View.canon_unit_zero hz]
  simp only [View.readCov_unit_zero (S := S1x1) _ hz, View.readAt_eq_ld, h1.read_unread, h2.read_unread, h5.read_unread, h6.read_unread,
    View.ld_unit_zero (S := S4096x128) hz, View.ld_unit_zero (S := S1x1) hz]

end Cert.KernelIdeal.Pieces

end
-- ==== Proof.Entries.lean ====
/-
  One entry's two contributions, and a block's total, over the extended reals. No program is mentioned here.

  * the weighted log term of an entry `x` with label `t`: `log x · w₁` where `t = 1`, `log (1 − x) · w₀` elsewhere;
  * the hit indicator: `1` where `x` rounded to the nearest integer (ties to even) equals the label read as a real,
    `0` elsewhere — whether the one-bit comparison is widened to 32 bits and read signed, or read unsigned as it is;
  * the lane sums of a 4096 × 128 block followed by the sum of those down the rows is the double sum over the block.
-/
import Idealize.ShloMosaic.Lib.ValueIdx
import Idealize.ShloMosaic.Lib.Pipeline.Value
import Idealize.ShloMosaic.PureOps.Ideal.Laws

noncomputable section

open scoped BigOperators

namespace Cert.BalancedEntries

open Idealize.ShloMosaic Idealize.ShloMosaic.ValueIdx

/-- The weighted log term of one entry. The three literals are the f32 words of 1.6, 1 and 0.4; both programs carry
    the same words, so they are never evaluated. -/
def lossElt (x : EReal) (t : BitVec 32) : EReal :=
  Scalar.select (IntOp.cmpi .eq t 1#32)
    (Ideal.log x * Ideal.ofBits .f32 0x3FCCCCCD#32)
    (Ideal.log (Ideal.ofBits .f32 0x3F800000#32 - x) * Ideal.ofBits .f32 0x3ECCCCCD#32)

/-- The hit indicator of one entry: the comparison bit of "x rounded half-to-even = the label", as a real. -/
def hitElt (x : EReal) (t : BitVec 32) : EReal :=
  (((Ideal.cmp .oeq (Ideal.liftRound Ideal.roundHalfEven x) ((t.toInt : ℝ) : EReal)).toNat : ℝ) : EReal)

/-- A one-bit word widened to 32 bits and read signed is the bit read unsigned. -/
theorem widened_bit (b : BitVec 1) : (((b.setWidth 32).toInt : ℝ) : EReal) = ((b.toNat : ℝ) : EReal) := by
  by_cases h : b = 1#1
  · subst h; norm_num
  · obtain rfl := eq_zero_of_ne_one h; norm_num

/-- A pointwise vector body at an index: the select of the two weighted logs is the entry's term. -/
theorem loss_vec_apply {s : Shape} (x : FVec Ideal s .f32) (t : IVec s 32) (j : s.Idx) :
    select (cmpi .eq t (broadcast s 1#32))
        (mulf (log x) (broadcast s (Scalar.ofBits .f32 0x3FCCCCCD#32)))
        (mulf (log (subf (broadcast s (Scalar.ofBits .f32 0x3F800000#32)) x)) (broadcast s (Scalar.ofBits .f32 0x3ECCCCCD#32))) j
      = lossElt (x j) (t j) := rfl

/-- The same for the hit indicator, the comparison bit widened to 32 bits and converted signed. -/
theorem hit_vec_apply {s : Shape} (x : FVec Ideal s .f32) (t : IVec s 32) (h : 1 < 32) (j : s.Idx) :
    (sitofp .f32 (extui 32 (cmpf .oeq (roundeven x) (sitofp .f32 t)) h) : FVec Ideal s .f32) j = hitElt (x j) (t j) :=
  widened_bit _

/-- The loss as one function of the two flat arrays: minus the sum of every entry's weighted log term, over 2^24
    (the literal is the f32 word of 2^24, the same word in both programs). -/
def lossRes (x : (⟨1, ![16777216]⟩ : Shape).Idx → EReal) (t : (⟨1, ![16777216]⟩ : Shape).Idx → BitVec 32) :
    (⟨0, ![]⟩ : Shape).Idx → EReal :=
  fun _ => Ideal.div (-(∑ k : Fin 16777216, lossElt (x (ix1 k)) (t (ix1 k)))) (Ideal.ofBits .f32 0x4B800000#32)

/-- The accuracy as one function of the two flat arrays: the number of hits, over 2^24. -/
def accRes (x : (⟨1, ![16777216]⟩ : Shape).Idx → EReal) (t : (⟨1, ![16777216]⟩ : Shape).Idx → BitVec 32) :
    (⟨0, ![]⟩ : Shape).Idx → EReal :=
  fun _ => Ideal.div (∑ k : Fin 16777216, hitElt (x (ix1 k)) (t (ix1 k))) (Ideal.ofBits .f32 0x4B800000#32)

abbrev SB : Shape := ⟨2, ![4096, 128]⟩
abbrev SR : Shape := ⟨1, ![4096]⟩
abbrev SC : Shape := ⟨2, ![4096, 1]⟩
abbrev SU : Shape := ⟨1, ![1]⟩
abbrev SUU : Shape := ⟨2, ![1, 1]⟩

/-- Lane sums of a block, viewed as a column, summed down the rows, viewed as 1 × 1: the one entry is the block's total. -/
theorem total_apply (src : FVec Ideal SB .f32) (h1 : SB.Reduces [1] SR) (c1 : SR.ShapeCasts SC) (h0 : SC.Reduces [0] SU)
    (c0 : SU.ShapeCasts SUU) (hφ : FKind.Formats .f32) (hacc : (0x00000000#32 : BitVec 32) = FKind.add.neutral .f32 hφ) :
    shapeCast SUU (multiReduction .add [0] SU
        (shapeCast SC (multiReduction .add [1] SR src 0x00000000#32 h1 hφ hacc) c1) 0x00000000#32 h0 hφ hacc) c0 (ix2 0 0)
      = ∑ r : Fin 4096, ∑ l : Fin 128, src (ix2 r l) := by
  refine (shapeCast_apply _ c0 (ix2 0 0) (ix1 0) ?_).trans ?_
  · rw [Shape.rowMajor_val_one, Shape.rowMajor_val_two]; rfl
  refine (Ideal.multiReduction_add_single _ _ h0 hφ hacc (ix1 0)).trans ?_
  refine Finset.sum_congr rfl fun r _ => ?_
  refine (shapeCast_apply _ c1 (h0.lift (ix1 0) r) (ix1 r) ?_).trans ?_
  · rw [Shape.rowMajor_val_one, Shape.rowMajor_val_two]; show r.val = r.val * 1 + 0; omega
  refine (Ideal.multiReduction_add_single src _ h1 hφ hacc (ix1 r)).trans ?_
  refine Finset.sum_congr rfl fun l _ => congrArg src ?_
  funext a
  match a with
  | ⟨0, _⟩ => rfl
  | ⟨1, _⟩ => rfl

end Cert.BalancedEntries

end
-- ==== Proof.Payloads.lean ====
/-
  The body's arithmetic read at its one output cell, over the extended reals. The loss update adds to the accumulator's
  cell the double sum, over the rows and lanes of the point's block, of each entry's weighted log term; the hit update
  adds the double sum of the hit indicators; the value stored at the first point is zero.
-/
import proofs.«171427_j77489799954598_1_alg».proof.Proof.Gen.KernelIdeal.Skeleton
import proofs.«171427_j77489799954598_1_alg».proof.Proof.Entries

noncomputable section

open scoped BigOperators

namespace Cert.KernelIdeal.Payloads

open Idealize.ShloMosaic Idealize.ShloMosaic.ValueIdx
open Cert.KernelIdeal Cert.KernelIdeal.Gen Cert.BalancedEntries

/-- The loss accumulator is reset to zero. -/
theorem lossZero_apply (j : S1x1.Idx) : (k0_pay2 (F := Ideal)) j = 0 := by
  unfold k0_pay2
  simp only [shapeCast_self]
  exact Ideal.ofBits_zero_f32

/-- The hit accumulator is reset to zero. -/
theorem hitZero_apply (j : S1x1.Idx) : (k0_pay3 (F := Ideal)) j = 0 := by
  unfold k0_pay3
  simp only [shapeCast_self]
  exact Ideal.ofBits_zero_f32

/-- The loss update at the one cell: the old value plus the block's total of weighted log terms. -/
theorem lossUpdate_apply (x0 : Vec Ideal S4096x128 .f32) (x1 : Vec Ideal S4096x128 .i32) (v : Vec Ideal S1x1 .f32) :
    k0_pay6 (F := Ideal) x0 x1 v (ix2 0 0)
      = v (ix2 0 0) + ∑ r : Fin 4096, ∑ l : Fin 128, lossElt (x0 (ix2 r l)) (x1 (ix2 r l)) := by
  unfold k0_pay6 k0_pay4 k0_pay5
  simp only [shapeCast_self]
  refine (addf_apply _ _ _).trans (congrArg (fun z => v (ix2 0 0) + z) ?_)
  refine (total_apply _ reduces_S4096x128_S4096 shapeCasts_S4096_S4096x1 reduces_S4096x1_S1 shapeCasts_S1_S1x1 (.inl rfl) rfl).trans ?_
  exact Finset.sum_congr rfl fun r _ => Finset.sum_congr rfl fun l _ => loss_vec_apply x0 x1 (ix2 r l)

/-- The hit update at the one cell: the old value plus the block's count of hits. -/
theorem hitUpdate_apply (x0 : Vec Ideal S4096x128 .f32) (x1 : Vec Ideal S4096x128 .i32) (v : Vec Ideal S1x1 .f32) :
    k0_pay1 (F := Ideal) (k0_pay7 x0 x1) v (ix2 0 0)
      = v (ix2 0 0) + ∑ r : Fin 4096, ∑ l : Fin 128, hitElt (x0 (ix2 r l)) (x1 (ix2 r l)) := by
  unfold k0_pay1 k0_pay7 k0_pay4 k0_pay5
  simp only [shapeCast_self]
  refine (addf_apply _ _ _).trans (congrArg (fun z => v (ix2 0 0) + z) ?_)
  refine (total_apply _ reduces_S4096x128_S4096 shapeCasts_S4096_S4096x1 reduces_S4096x1_S1 shapeCasts_S1_S1x1 (.inl rfl) rfl).trans ?_
  exact Finset.sum_congr rfl fun r _ => Finset.sum_congr rfl fun l _ => hit_vec_apply x0 x1 natLt_1_32 (ix2 r l)

end Cert.KernelIdeal.Payloads

end
-- ==== Proof.Sums.lean ====
/-
  Regrouping a sum over a flat array of 2^24 entries as 32 blocks of 4096 rows of 128 lanes, and the running
  total of the blocks: the two facts about finite sums in a commutative monoid that join a block-by-block
  accumulation to one sum over the whole array. No program is mentioned here.
-/
import Idealize.ShloMosaic.Lib.ValueIdx
import Idealize.ShloMosaic.Lib.ValueIdxRank1

noncomputable section

open scoped BigOperators

namespace Cert.BalancedSums

open Idealize.ShloMosaic Idealize.ShloMosaic.ValueIdx

/-- Lane `l` of row `r` of block `t` is entry `(4096 t + r) * 128 + l` of the flat array. -/
def flat (t : Fin 32) (r : Fin 4096) (l : Fin 128) : Fin 16777216 :=
  ⟨(4096 * t.val + r.val) * 128 + l.val, by have := t.isLt; have := r.isLt; have := l.isLt; omega⟩

theorem flat_val (t : Fin 32) (r : Fin 4096) (l : Fin 128) :
    (flat t r l).val = (4096 * t.val + r.val) * 128 + l.val := rfl

/-- A sum over `Fin (a * b)` is the double sum over quotient and remainder. -/
theorem sum_fin_mul {M : Type*} [AddCommMonoid M] (a b : ℕ) (g : Fin (a * b) → M) :
    ∑ i, g i = ∑ p : Fin a, ∑ q : Fin b, g (finProdFinEquiv (p, q)) := by
  rw [← finProdFinEquiv.sum_comp g, Fintype.sum_prod_type]

/-- The sum over the flat array is the sum over blocks, rows and lanes. -/
theorem sum_flat {M : Type*} [AddCommMonoid M] (g : Fin 16777216 → M) :
    ∑ i, g i = ∑ t : Fin 32, ∑ r : Fin 4096, ∑ l : Fin 128, g (flat t r l) := by
  have e : (32 * 4096) * 128 = 16777216 := by norm_num
  rw [← (finCongr e).sum_comp g, sum_fin_mul (32 * 4096) 128, sum_fin_mul 32 4096]
  refine Finset.sum_congr rfl fun t _ => Finset.sum_congr rfl fun r _ => Finset.sum_congr rfl fun l _ =>
    congrArg g (Fin.ext ?_)
  simp only [finCongr_apply, Fin.coe_cast, finProdFinEquiv_apply_val, flat_val]
  ring

/-- The sum over a rank-1 index set of 2^24 entries, through its one coordinate. -/
theorem sum_idx1 {M : Type*} [AddCommMonoid M] (f : (⟨1, ![16777216]⟩ : Shape).Idx → M) :
    ∑ i, f i = ∑ k : Fin 16777216, f (ix1 k) := by
  rw [← Equiv.sum_comp (idxEquiv1 (n := 16777216)).symm f]
  rfl

/-- The running total an accumulator keeps: zero plus the first block's total, then each later block's added. -/
def running {M : Type*} [AddCommMonoid M] (B : ℕ → M) : ℕ → M
  | 0 => 0 + B 0
  | n + 1 => running B n + B (n + 1)

theorem running_eq {M : Type*} [AddCommMonoid M] (B : ℕ → M) (n : ℕ) :
    running B n = ∑ k ∈ Finset.range (n + 1), B k := by
  induction n with
  | zero => simp [running]
  | succ n ih => rw [running, ih, Finset.sum_range_succ (fun k => B k) (n + 1)]

/-- After the last of 32 blocks the running total is the sum of all 32. -/
theorem running_last {M : Type*} [AddCommMonoid M] (B : ℕ → M) : running B 31 = ∑ t : Fin 32, B t.val := by
  rw [running_eq, Finset.sum_range]

end Cert.BalancedSums

end
-- ==== Proof.Tail.lean ====
/-
  The host lines that follow the kernel call, as functions of the two 1 × 1 arrays the call leaves: each array is read
  as a scalar; the loss is negated and divided by the constant 2^24, the hit count is divided by the same constant.
  Whatever the buffers hold when these lines start, the two results are these functions of the two arrays.
-/
import proofs.«171427_j77489799954598_1_alg».proof.Proof.Gen.KernelIdeal.Launch
import Idealize.ShloMosaic.Lib.StableHlo.Run
import Idealize.ShloMosaic.Lib.Tactic

noncomputable section

open Idealize.ShloMosaic Idealize.ShloMosaic.TcCoe Idealize.SL.Sem

namespace Cert.KernelIdeal.Tail

open Cert.KernelIdeal Cert.KernelIdeal.Gen

variable {F : FTy → Type} [FloatOps F]

/-- The loss array read as a scalar, negated, divided by 2^24. -/
def lossTail (A : Vec F S1x1 .f32) : FVec F S_ .f32 :=
  Host.divf (F := F) (Host.negf (F := F) (shapeCast S_ A shapeCasts_S1x1_S_)) (constant (F := F) S_ .f32 0x4B800000#32)

/-- The hit array read as a scalar, divided by 2^24. -/
def hitTail (A : Vec F S1x1 .f32) : FVec F S_ .f32 :=
  Host.divf (F := F) (shapeCast S_ A shapeCasts_S1x1_S_) (constant (F := F) S_ .f32 0x4B800000#32)

theorem loss_after (W : Valuation τ sig (Elt F)) :
    StableHlo.after (hostOps1 (F := F)) W (Proc.devRef .tc main_v5) = lossTail (W (Proc.devRef .tc main_v2_0)) := by
  after_results
  rfl

theorem hit_after (W : Valuation τ sig (Elt F)) :
    StableHlo.after (hostOps1 (F := F)) W (Proc.devRef .tc main_v7) = hitTail (W (Proc.devRef .tc main_v2_1)) := by
  after_results
  rfl

end Cert.KernelIdeal.Tail

end
-- ==== Proof.Blocks.lean ====
/-
  What the two input windows hold at a grid point, in terms of the flat argument arrays. The host reshapes each
  flat array of 2^24 entries to 131072 rows of 128 lanes (row-major); the window at point `t` is rows
  `4096 t … 4096 t + 4095`, all lanes. So lane `l` of row `r` of the block is entry `(4096 t + r) · 128 + l` of the flat array.
-/
import proofs.«171427_j77489799954598_1_alg».proof.Proof.Gen.KernelIdeal.Frame
import proofs.«171427_j77489799954598_1_alg».proof.Proof.Sums
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen Cert.BalancedSums

variable {F : FTy → Type} [FloatOps F]
variable (m : (ℓ : Loc nD τ sig) → Buf (Elt F) ℓ)

/-- Both input windows' index maps: block row `t`, block column 0. -/
theorem idx_in : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

/-- The float array as the call finds it: the flat argument reshaped. -/
theorem V_float (c : Dev nD) :
    V m c main_v0 = shapeCast S131072x128 (m ((c.tc : Thread nD τ).loc main_arg0)) shapeCasts_S16777216_S131072x128 := by
  show StableHlo.after hostOps0 (fun b => m (c, b)) (Proc.devRef .tc main_v0) = _
  after_results
  rfl

/-- The label array as the call finds it: the flat argument reshaped. -/
theorem V_label (c : Dev nD) :
    V m c main_v1 = shapeCast S131072x128 (m ((c.tc : Thread nD τ).loc main_arg1)) shapeCasts_S16777216_S131072x128 := by
  show StableHlo.after hostOps0 (fun b => m (c, b)) (Proc.devRef .tc main_v1) = _
  after_results
  rfl

/-- The float block at point `t`, entry by entry. -/
theorem float_apply (c : Dev nD) (t : Fin cfg0.N) (r : Fin 4096) (l : Fin 128) :
    (iblk m c 0 t : Vec F S4096x128 .f32) (ix2 r l) = m ((c.tc : Thread nD τ).loc main_arg0) (ix1 (flat t r l)) := by
  unfold iblk
  rw [View.read_apply]
  show V m c main_v0 (((cfg0.win 0).blk t).view.emb (ix2 r l)) = _
  rw [V_float]
  refine shapeCast_apply _ _ _ (ix1 (flat t r l)) ?_
  rw [Shape.rowMajor_val_one, Shape.rowMajor_val_two]
  show (flat t r l).val = (win0_0.index t 0 * 4096 + 1 * r.val) * 128 + (win0_0.index t 1 * 128 + 1 * l.val)
  rw [(idx_in t).1, (idx_in t).2.1]
  show (4096 * t.val + r.val) * 128 + l.val = _
  omega

/-- The label block at point `t`, entry by entry. -/
theorem label_apply (c : Dev nD) (t : Fin cfg0.N) (r : Fin 4096) (l : Fin 128) :
    (iblk m c 1 t : Vec F S4096x128 .i32) (ix2 r l) = m ((c.tc : Thread nD τ).loc main_arg1) (ix1 (flat t r l)) := by
  unfold iblk
  rw [View.read_apply]
  show V m c main_v1 (((cfg0.win 1).blk t).view.emb (ix2 r l)) = _
  rw [V_label]
  refine shapeCast_apply _ _ _ (ix1 (flat t r l)) ?_
  rw [Shape.rowMajor_val_one, Shape.rowMajor_val_two]
  show (flat t r l).val = (win0_1.index t 0 * 4096 + 1 * r.val) * 128 + (win0_1.index t 1 * 128 + 1 * l.val)
  rw [(idx_in t).2.2.1, (idx_in t).2.2.2]
  show (4096 * t.val + r.val) * 128 + l.val = _
  omega

end Cert.KernelIdeal.Blocks

end
-- ==== Proof.KernelTotals.lean ====
/-
  What the kernel program leaves in its two results, over the extended reals.

  The two accumulators after grid point `n` hold the running totals of the blocks' weighted-log totals and hit counts
  (zero, plus block 0, plus block 1, …: by induction on the point); at the last point the two output blocks receive
  those totals, and they are the only write-back, covering each 1 × 1 result array whole. The host lines after the
  call read each array as a scalar, negate the loss total, and divide both by the constant 2^24.
-/
import proofs.«171427_j77489799954598_1_alg».proof.Proof.Gen.KernelIdeal.Frame
import proofs.«171427_j77489799954598_1_alg».proof.Proof.Pieces
import proofs.«171427_j77489799954598_1_alg».proof.Proof.Payloads
import proofs.«171427_j77489799954598_1_alg».proof.Proof.Sums
import proofs.«171427_j77489799954598_1_alg».proof.Proof.Tail
import proofs.«171427_j77489799954598_1_alg».proof.Proof.Blocks
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.KernelIdeal.Totals

open Cert.KernelIdeal Cert.KernelIdeal.Gen Cert.KernelIdeal.Pieces Cert.KernelIdeal.Payloads Cert.KernelIdeal.Tail Cert.KernelIdeal.Blocks
open Cert.BalancedEntries Cert.BalancedSums

variable (m : (ℓ : Loc nD τ sig) → Buf (Elt Ideal) ℓ) (ρ : Dev nD → PrngReg)

/-- The float block and the label block the two input windows hold at point `t`. -/
abbrev xblk (c : Dev nD) (t : Fin cfg0.N) : Vec Ideal S4096x128 .f32 := iblk m c 0 t
abbrev tblk (c : Dev nD) (t : Fin cfg0.N) : Vec Ideal S4096x128 .i32 := iblk m c 1 t

/-- Block `n`'s total of weighted log terms (zero past the grid). -/
def lossBlock (c : Dev nD) (n : ℕ) : EReal :=
  if h : n < cfg0.N then ∑ r : Fin 4096, ∑ l : Fin 128, lossElt (xblk m c ⟨n, h⟩ (ix2 r l)) (tblk m c ⟨n, h⟩ (ix2 r l)) else 0

/-- Block `n`'s count of hits (zero past the grid). -/
def hitBlock (c : Dev nD) (n : ℕ) : EReal :=
  if h : n < cfg0.N then ∑ r : Fin 4096, ∑ l : Fin 128, hitElt (xblk m c ⟨n, h⟩ (ix2 r l)) (tblk m c ⟨n, h⟩ (ix2 r l)) else 0

/-- After point `n` the accumulators' one cell holds the running totals. -/
theorem acc_eq (c : Dev nD) : ∀ (n : ℕ) (h : n < cfg0.N),
    (outsAt0 m c n h).2.2.1 (ix2 0 0) = running (lossBlock m c) n
      ∧ (outsAt0 m c n h).2.2.2 (ix2 0 0) = running (hitBlock m c) n
  | 0, h => by
    rw [outsAt0_A m c ⟨0, h⟩ rfl (by show ¬(0 : ℕ) % 32 = 31; decide)]
    dsimp only
    constructor
    · refine (congrFun (lossAcc_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) ((hcond0_0 ⟨0, h⟩).mpr rfl) (fun hh => absurd ((hcond0_1 ⟨0, h⟩).mp hh) (by show ¬(0 : ℕ) % 32 = 31; decide)) (xblk m c ⟨0, h⟩) (tblk m c ⟨0, h⟩)) (ix2 0 0)).trans ?_
      refine (lossUpdate_apply (xblk m c ⟨0, h⟩) (tblk m c ⟨0, h⟩) _).trans ?_
      rw [lossZero_apply]
      unfold running lossBlock
      rw [dif_pos h]
    · refine (congrFun (hitAcc_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) scM0_1 (Memref.isWhole_whole _) ((hcond0_0 ⟨0, h⟩).mpr rfl) (fun hh => absurd ((hcond0_1 ⟨0, h⟩).mp hh) (by show ¬(0 : ℕ) % 32 = 31; decide)) (xblk m c ⟨0, h⟩) (tblk m c ⟨0, h⟩)) (ix2 0 0)).trans ?_
      refine (hitUpdate_apply (xblk m c ⟨0, h⟩) (tblk m c ⟨0, h⟩) _).trans ?_
      rw [hitZero_apply]
      unfold running hitBlock
      rw [dif_pos h]
  | n + 1, h => by
    have hN : cfg0.N = 32 := N_0
    have ih := acc_eq c n (Nat.lt_of_succ_lt h)
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      constructor
      · refine (congrFun (lossAcc_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (xblk m c ⟨n + 1, h⟩) (tblk m c ⟨n + 1, h⟩) (outsAt0 m c n (Nat.lt_of_succ_lt h)).2.2.1 (outsAt0 m c n (Nat.lt_of_succ_lt h)).2.2.2) (ix2 0 0)).trans ?_
        refine (lossUpdate_apply (xblk m c ⟨n + 1, h⟩) (tblk m c ⟨n + 1, h⟩) (outsAt0 m c n (Nat.lt_of_succ_lt h)).2.2.1).trans ?_
        rw [ih.1]
        show _ = running (lossBlock m c) n + lossBlock m c (n + 1)
        unfold lossBlock
        rw [dif_pos h]
      · refine (congrFun (hitAcc_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (xblk m c ⟨n + 1, h⟩) (tblk m c ⟨n + 1, h⟩) (outsAt0 m c n (Nat.lt_of_succ_lt h)).2.2.1 (outsAt0 m c n (Nat.lt_of_succ_lt h)).2.2.2) (ix2 0 0)).trans ?_
        refine (hitUpdate_apply (xblk m c ⟨n + 1, h⟩) (tblk m c ⟨n + 1, h⟩) (outsAt0 m c n (Nat.lt_of_succ_lt h)).2.2.2).trans ?_
        rw [ih.2]
        show _ = running (hitBlock m c) n + hitBlock m c (n + 1)
        unfold hitBlock
        rw [dif_pos h]
    · rw [outsAt0_B m c ⟨n + 1, h⟩ h0 h1]
      dsimp only
      constructor
      · refine (congrFun (lossAcc_mid (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (xblk m c ⟨n + 1, h⟩) (tblk m c ⟨n + 1, h⟩) (outsAt0 m c n (Nat.lt_of_succ_lt h)).2.2.1 (outsAt0 m c n (Nat.lt_of_succ_lt h)).2.2.2) (ix2 0 0)).trans ?_
        refine (lossUpdate_apply (xblk m c ⟨n + 1, h⟩) (tblk m c ⟨n + 1, h⟩) (outsAt0 m c n (Nat.lt_of_succ_lt h)).2.2.1).trans ?_
        rw [ih.1]
        show _ = running (lossBlock m c) n + lossBlock m c (n + 1)
        unfold lossBlock
        rw [dif_pos h]
      · refine (congrFun (hitAcc_mid (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (xblk m c ⟨n + 1, h⟩) (tblk m c ⟨n + 1, h⟩) (outsAt0 m c n (Nat.lt_of_succ_lt h)).2.2.1 (outsAt0 m c n (Nat.lt_of_succ_lt h)).2.2.2) (ix2 0 0)).trans ?_
        refine (hitUpdate_apply (xblk m c ⟨n + 1, h⟩) (tblk m c ⟨n + 1, h⟩) (outsAt0 m c n (Nat.lt_of_succ_lt h)).2.2.2).trans ?_
        rw [ih.2]
        show _ = running (hitBlock m c) n + hitBlock m c (n + 1)
        unfold hitBlock
        rw [dif_pos h]

/-- At the last point the output blocks' one cell receives the accumulators as just updated: the running totals. -/
theorem out_eq (c : Dev nD) : ∀ (n : ℕ) (h : n < cfg0.N), n % 32 = 31 →
    (outsAt0 m c n h).1 (ix2 0 0) = running (lossBlock m c) n
      ∧ (outsAt0 m c n h).2.1 (ix2 0 0) = running (hitBlock m c) n
  | 0, h, h1 => absurd h1 (by decide)
  | n + 1, h, h1 => by
    have hN : cfg0.N = 32 := N_0
    have ih := acc_eq m c n (Nat.lt_of_succ_lt h)
    have h0 : ¬(⟨n + 1, h⟩ : Fin cfg0.N).val % 32 = 0 := by dsimp only; omega
    rw [outsAt0_C m c ⟨n + 1, h⟩ h0 h1]
    dsimp only
    constructor
    · refine (congrFun (lossOut_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (xblk m c ⟨n + 1, h⟩) (tblk m c ⟨n + 1, h⟩) (outsAt0 m c n (Nat.lt_of_succ_lt h)).2.2.1 (outsAt0 m c n (Nat.lt_of_succ_lt h)).2.2.2) (ix2 0 0)).trans ?_
      refine (lossUpdate_apply (xblk m c ⟨n + 1, h⟩) (tblk m c ⟨n + 1, h⟩) (outsAt0 m c n (Nat.lt_of_succ_lt h)).2.2.1).trans ?_
      rw [ih.1]
      show _ = running (lossBlock m c) n + lossBlock m c (n + 1)
      unfold lossBlock
      rw [dif_pos h]
    · refine (congrFun (hitOut_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun hh => h0 ((hcond0_0 ⟨n + 1, h⟩).mp hh)) ((hcond0_1 ⟨n + 1, h⟩).mpr h1) (xblk m c ⟨n + 1, h⟩) (tblk m c ⟨n + 1, h⟩) (outsAt0 m c n (Nat.lt_of_succ_lt h)).2.2.1 (outsAt0 m c n (Nat.lt_of_succ_lt h)).2.2.2) (ix2 0 0)).trans ?_
      refine (hitUpdate_apply (xblk m c ⟨n + 1, h⟩) (tblk m c ⟨n + 1, h⟩) (outsAt0 m c n (Nat.lt_of_succ_lt h)).2.2.2).trans ?_
      rw [ih.2]
      show _ = running (hitBlock m c) n + hitBlock m c (n + 1)
      unfold hitBlock
      rw [dif_pos h]

/-- A 1 × 1 array has one index. -/
theorem idx11 (j : S1x1.Idx) : j = ix2 0 0 := by
  have h0 : (j 0).val < 1 := (j 0).isLt
  have h1 : (j 1).val < 1 := (j 1).isLt
  funext a
  match a with
  | ⟨0, _⟩ => exact Fin.ext (by show (j 0).val = 0; omega)
  | ⟨1, _⟩ => exact Fin.ext (by show (j 1).val = 0; omega)

/-- The totals over all 32 blocks. -/
def lossTotal (c : Dev nD) : EReal := running (lossBlock m c) 31
def hitTotal (c : Dev nD) : EReal := running (hitBlock m c) 31

/-- The two result arrays after the call: the one cell at the total. -/
abbrev lossArr (c : Dev nD) : Buf (Elt Ideal) ((c.tc : Thread nD τ).loc main_v2_0) := fun _ => lossTotal m c
abbrev hitArr (c : Dev nD) : Buf (Elt Ideal) ((c.tc : Thread nD τ).loc main_v2_1) := fun _ => hitTotal m c

/-- The last grid point. -/
abbrev tLast : Fin cfg0.N := ⟨31, by rw [show cfg0.N = 32 from N_0]; decide⟩

/-- The one write-back of the loss window, at the last point, writes the total. -/
theorem flushed_loss (c : Dev nD) (t : Fin cfg0.N) (hf : (cfg0.win 2).flush t = true) :
    (dats m 0 c).flushed 2 t = ((cfg0.win 2).blk t).view.read (Elt Ideal) (lossArr m c) := by
  have hN : cfg0.N = 32 := N_0
  have h1 : t.val % 32 = 31 := (flush0_2 t).mp hf
  have h31 : t.val = 31 := by have := t.isLt; omega
  have hT : running (lossBlock m c) 31 = lossTotal m c := by unfold lossTotal; rfl
  funext y
  have e : (dats m 0 c).flushed 2 t y = (dats m 0 c).after 2 t ((cfg0.win 2).xinj (grid0.coords t) y) := rfl
  have hr : ∀ K : EReal, ((cfg0.win 2).blk t).view.read (Elt Ideal) (fun _ => K) y = K := fun _ => rfl
  rw [e, after0_2]
  refine Eq.trans ?_ (hr (lossTotal m c)).symm
  exact (congrArg ((outsAt0 m c t.val t.isLt).1) (idx11 _)).trans
    (((out_eq m c t.val t.isLt h1).1.trans (congrArg (running (lossBlock m c)) h31)).trans hT)

/-- The one write-back of the hit window, at the last point, writes the count. -/
theorem flushed_hit (c : Dev nD) (t : Fin cfg0.N) (hf : (cfg0.win 3).flush t = true) :
    (dats m 0 c).flushed 3 t = ((cfg0.win 3).blk t).view.read (Elt Ideal) (hitArr m c) := by
  have hN : cfg0.N = 32 := N_0
  have h1 : t.val % 32 = 31 := (flush0_3 t).mp hf
  have h31 : t.val = 31 := by have := t.isLt; omega
  have hT : running (hitBlock m c) 31 = hitTotal m c := by unfold hitTotal; rfl
  funext y
  have e : (dats m 0 c).flushed 3 t y = (dats m 0 c).after 3 t ((cfg0.win 3).xinj (grid0.coords t) y) := rfl
  have hr : ∀ K : EReal, ((cfg0.win 3).blk t).view.read (Elt Ideal) (fun _ => K) y = K := fun _ => rfl
  rw [e, after0_3]
  refine Eq.trans ?_ (hr (hitTotal m c)).symm
  exact (congrArg ((outsAt0 m c t.val t.isLt).2.1) (idx11 _)).trans
    (((out_eq m c t.val t.isLt h1).2.trans (congrArg (running (hitBlock m c)) h31)).trans hT)

/-- The loss array ends at the total: the last point's block is the whole array. -/
theorem final_loss (c : Dev nD) : (dats m 0 c).arrAt 2 cfg0.N = lossArr m c :=
  (dats m 0 c).arrAt_eq_of_cover 2 (lossArr m c) (flushed_loss m c) fun i =>
    ⟨tLast, (flush0_2 tLast).mpr (by show (31 : ℕ) % 32 = 31; decide), by
      show i ∈ ((View.whole main_v2_0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The hit array ends at the count. -/
theorem final_hit (c : Dev nD) : (dats m 0 c).arrAt 3 cfg0.N = hitArr m c :=
  (dats m 0 c).arrAt_eq_of_cover 3 (hitArr m c) (flushed_hit m c) fun i =>
    ⟨tLast, (flush0_3 tLast).mpr (by show (31 : ℕ) % 32 = 31; decide), by
      show i ∈ ((View.whole main_v2_1).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- The loss result after the host lines that follow the call. -/
theorem tail_loss (c : Dev nD) :
    Pipeline.afterTail₀ cfgs (dats m) 0 (V0 m) [hostOps1] c main_v5 = lossTail (lossArr m c) := by
  unfold Pipeline.afterTail₀
  rw [show ([hostOps1] : List (List (HloOp τ sig (Elt Ideal)))).flatten = hostOps1 from by
    simp only [List.flatten_cons, List.flatten_nil, List.append_nil]]
  refine (loss_after _).trans (congrArg lossTail ?_)
  exact (Pipeline.withArrays_arr spec0 launch0.win.arr_inj c _ _ 2).trans (final_loss m c)

/-- The accuracy result after the host lines that follow the call. -/
theorem tail_hit (c : Dev nD) :
    Pipeline.afterTail₀ cfgs (dats m) 0 (V0 m) [hostOps1] c main_v7 = hitTail (hitArr m c) := by
  unfold Pipeline.afterTail₀
  rw [show ([hostOps1] : List (List (HloOp τ sig (Elt Ideal)))).flatten = hostOps1 from by
    simp only [List.flatten_cons, List.flatten_nil, List.append_nil]]
  refine (hit_after _).trans (congrArg hitTail ?_)
  exact (Pipeline.withArrays_arr spec0 launch0.win.arr_inj c _ _ 3).trans (final_hit m c)

/-- Block `t`'s loss total over the flat argument arrays. -/
theorem lossBlock_eq (c : Dev nD) (t : Fin 32) :
    lossBlock m c t.val = ∑ r : Fin 4096, ∑ l : Fin 128,
      lossElt (m ((c.tc : Thread nD τ).loc main_arg0) (ix1 (flat t r l))) (m ((c.tc : Thread nD τ).loc main_arg1) (ix1 (flat t r l))) := by
  have h : t.val < cfg0.N := by rw [show cfg0.N = 32 from N_0]; exact t.isLt
  unfold lossBlock
  rw [dif_pos h]
  refine Finset.sum_congr rfl fun r _ => Finset.sum_congr rfl fun l _ => ?_
  exact congrArg₂ lossElt (float_apply m c ⟨t.val, h⟩ r l) (label_apply m c ⟨t.val, h⟩ r l)

/-- Block `t`'s hit count over the flat argument arrays. -/
theorem hitBlock_eq (c : Dev nD) (t : Fin 32) :
    hitBlock m c t.val = ∑ r : Fin 4096, ∑ l : Fin 128,
      hitElt (m ((c.tc : Thread nD τ).loc main_arg0) (ix1 (flat t r l))) (m ((c.tc : Thread nD τ).loc main_arg1) (ix1 (flat t r l))) := by
  have h : t.val < cfg0.N := by rw [show cfg0.N = 32 from N_0]; exact t.isLt
  unfold hitBlock
  rw [dif_pos h]
  refine Finset.sum_congr rfl fun r _ => Finset.sum_congr rfl fun l _ => ?_
  exact congrArg₂ hitElt (float_apply m c ⟨t.val, h⟩ r l) (label_apply m c ⟨t.val, h⟩ r l)

/-- The loss total is the sum over the whole flat array: the 32 blocks of 4096 rows of 128 lanes are all its entries. -/
theorem lossTotal_eq (c : Dev nD) :
    lossTotal m c = ∑ k : Fin 16777216,
      lossElt (m ((c.tc : Thread nD τ).loc main_arg0) (ix1 k)) (m ((c.tc : Thread nD τ).loc main_arg1) (ix1 k)) := by
  unfold lossTotal
  rw [running_last, sum_flat (fun k => lossElt (m ((c.tc : Thread nD τ).loc main_arg0) (ix1 k)) (m ((c.tc : Thread nD τ).loc main_arg1) (ix1 k)))]
  exact Finset.sum_congr rfl fun t _ => lossBlock_eq m c t

/-- The hit total is the count over the whole flat array. -/
theorem hitTotal_eq (c : Dev nD) :
    hitTotal m c = ∑ k : Fin 16777216,
      hitElt (m ((c.tc : Thread nD τ).loc main_arg0) (ix1 k)) (m ((c.tc : Thread nD τ).loc main_arg1) (ix1 k)) := by
  unfold hitTotal
  rw [running_last, sum_flat (fun k => hitElt (m ((c.tc : Thread nD τ).loc main_arg0) (ix1 k)) (m ((c.tc : Thread nD τ).loc main_arg1) (ix1 k)))]
  exact Finset.sum_congr rfl fun t _ => hitBlock_eq m c t

/-- The two host tails on an array whose one cell holds `K`. -/
theorem lossTail_const (K : EReal) (i : S_.Idx) :
    lossTail (F := Ideal) (fun _ => K) i = Ideal.div (-K) (Ideal.ofBits .f32 0x4B800000#32) := rfl
theorem hitTail_const (K : EReal) (i : S_.Idx) :
    hitTail (F := Ideal) (fun _ => K) i = Ideal.div K (Ideal.ofBits .f32 0x4B800000#32) := rfl

/-- The kernel program's loss result is the loss function of its two arguments. -/
theorem loss_eq (c : Dev nD) :
    lossTail (lossArr m c) = lossRes (m ((c.tc : Thread nD τ).loc main_arg0)) (m ((c.tc : Thread nD τ).loc main_arg1)) := by
  funext i
  unfold lossRes
  rw [← lossTotal_eq m c]
  exact lossTail_const (lossTotal m c) i

/-- The kernel program's accuracy result is the accuracy function of its two arguments. -/
theorem acc_eq' (c : Dev nD) :
    hitTail (hitArr m c) = accRes (m ((c.tc : Thread nD τ).loc main_arg0)) (m ((c.tc : Thread nD τ).loc main_arg1)) := by
  funext i
  unfold accRes
  rw [← hitTotal_eq m c]
  exact hitTail_const (hitTotal m c) i

/-- The run, read: every weakly fair execution ends with the two results at the loss and accuracy functions of the
    argument arrays, and the arguments as launched. -/
theorem run : θ_run defs (onTc (τ := τ) (main (F := Ideal))) ⟨m, fun _ => 0, ρ⟩ fun r => ∀ c : Dev nD,
      r.2.mem ((c.tc : Thread nD τ).loc main_v5) = lossRes (m ((c.tc : Thread nD τ).loc main_arg0)) (m ((c.tc : Thread nD τ).loc main_arg1))
      ∧ r.2.mem ((c.tc : Thread nD τ).loc main_v7) = accRes (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(((h c).2 main_v5 (Pipeline.mem_restRefs_of main_v5 (by decide) (by decide))).trans (tail_loss m c)).trans (loss_eq m c),
     (((h c).2 main_v7 (Pipeline.mem_restRefs_of main_v7 (by decide) (by decide))).trans (tail_hit m c)).trans (acc_eq' m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Totals

end
-- ==== Proof.RefTotals.lean ====
/-
  The reference program's two results at their one index, over the extended reals: minus the sum over all 2^24
  entries of the weighted log term, divided by 2^24; and the sum of the hit indicators, divided by 2^24. The host's
  sum from zero is the plain sum; its logarithm and its rounding are the kernel's; converting the one-bit comparison
  unsigned gives the same 0 or 1 as widening it to 32 bits and converting signed.
-/
import proofs.«171427_j77489799954598_1_alg».proof.Proof.Gen.ReferenceIdeal.Read
import proofs.«171427_j77489799954598_1_alg».proof.Proof.Entries
import proofs.«171427_j77489799954598_1_alg».proof.Proof.Sums

noncomputable section

open scoped BigOperators

namespace Cert.ReferenceIdeal.Totals

open Idealize.ShloMosaic Idealize.ShloMosaic.ValueIdx
open Cert.ReferenceIdeal Cert.ReferenceIdeal.Read Cert.BalancedEntries Cert.BalancedSums

/-- The selected weighted log at an index is the entry's term. -/
theorem select_apply (x0 : (⟨S16777216, .f32⟩ : BufTy).Contents (Elt Ideal)) (x1 : (⟨S16777216, .i32⟩ : BufTy).Contents (Elt Ideal))
    (j : S16777216.Idx) : val_main_v10 (F := Ideal) x0 x1 j = lossElt (x0 j) (x1 j) := rfl

/-- The converted comparison at an index is the entry's hit indicator. -/
theorem hit_apply (x0 : (⟨S16777216, .f32⟩ : BufTy).Contents (Elt Ideal)) (x1 : (⟨S16777216, .i32⟩ : BufTy).Contents (Elt Ideal))
    (j : S16777216.Idx) : val_main_v17 (F := Ideal) x0 x1 j = hitElt (x0 j) (x1 j) := rfl

/-- The loss result: minus the sum of all entries' terms, over 2^24. -/
theorem loss_apply (x0 : (⟨S16777216, .f32⟩ : BufTy).Contents (Elt Ideal)) (x1 : (⟨S16777216, .i32⟩ : BufTy).Contents (Elt Ideal))
    (i : S_.Idx) :
    val_main_v13 (F := Ideal) x0 x1 i
      = Ideal.div (-(∑ k : Fin 16777216, lossElt (x0 (ix1 k)) (x1 (ix1 k)))) (Ideal.ofBits .f32 0x4B800000#32) := by
  rw [val_main_v13_apply, val_main_v12_apply, val_main_v11_apply, val_main_cst_2_apply, val_main_cst_3_apply]
  simp only [Ideal.hostDivf_def, Ideal.hostNegf_def, Ideal.negf_def, Ideal.ofBits_def, Ideal.ofBits_zero_f32, zero_add]
  rw [sum_idx1]
  rfl

/-- The accuracy result: the count of hits, over 2^24. -/
theorem acc_apply (x0 : (⟨S16777216, .f32⟩ : BufTy).Contents (Elt Ideal)) (x1 : (⟨S16777216, .i32⟩ : BufTy).Contents (Elt Ideal))
    (i : S_.Idx) :
    val_main_v19 (F := Ideal) x0 x1 i
      = Ideal.div (∑ k : Fin 16777216, hitElt (x0 (ix1 k)) (x1 (ix1 k))) (Ideal.ofBits .f32 0x4B800000#32) := by
  rw [val_main_v19_apply, val_main_v18_apply, val_main_cst_4_apply, val_main_cst_5_apply]
  simp only [Ideal.hostDivf_def, Ideal.ofBits_def, Ideal.ofBits_zero_f32, zero_add]
  rw [sum_idx1]
  rfl

/-- The reference's loss result is the loss function of its two arguments. -/
theorem loss_eq (x0 : (⟨S16777216, .f32⟩ : BufTy).Contents (Elt Ideal)) (x1 : (⟨S16777216, .i32⟩ : BufTy).Contents (Elt Ideal)) :
    val_main_v13 (F := Ideal) x0 x1 = lossRes x0 x1 := funext fun i => loss_apply x0 x1 i

/-- The reference's accuracy result is the accuracy function of its two arguments. -/
theorem acc_eq (x0 : (⟨S16777216, .f32⟩ : BufTy).Contents (Elt Ideal)) (x1 : (⟨S16777216, .i32⟩ : BufTy).Contents (Elt Ideal)) :
    val_main_v19 (F := Ideal) x0 x1 = accRes x0 x1 := funext fun i => acc_apply x0 x1 i

end Cert.ReferenceIdeal.Totals

end
-- ==== Proof.lean ====
/-
  The kernel program and its reference compute the same two numbers over the extended reals.

  Both take a flat array `x` of 2^24 floats and a flat array `t` of 2^24 labels. Per entry, the weighted log term is
  `log x · w₁` where `t = 1` and `log (1 − x) · w₀` elsewhere, and the hit indicator is 1 where `x` rounded to the
  nearest integer (ties to even) equals the label and 0 elsewhere. The loss is minus the sum of the terms over 2^24;
  the accuracy is the sum of the indicators over 2^24.

  The reference sums each over the whole flat array in one host reduction from zero. The kernel walks the array as 32 blocks
  of 4096 rows of 128 lanes: at each grid point it sums the block's lanes, then the rows, and adds the block's total to
  a 1 × 1 accumulator that it set to zero at the first point; after the last point it copies the accumulators out, and the host
  negates the loss total and divides both by 2^24. Addition of extended reals is commutative and associative whatever the summands
  (infinite ones included), so the kernel's zero-plus-block-by-block total of row-by-row, lane-by-lane sums is the one sum
  over all (4096 t + r) · 128 + l; the logarithm, the rounding, the comparison and the literals are the same functions and
  words on both sides. No precondition is used for the value.

  The three frames: the two kernel programs by their generated frames; the reference by its generated run, results dropped.
  The idealization rewrote nothing, so the preservation claim is trivial.
-/
import proofs.«171427_j77489799954598_1_alg».proof.Defs
import proofs.«171427_j77489799954598_1_alg».proof.Proof.Gen.Kernel
import proofs.«171427_j77489799954598_1_alg».proof.Proof.Gen.Kernel.Skeleton
import proofs.«171427_j77489799954598_1_alg».proof.Proof.Gen.Kernel.Launch
import proofs.«171427_j77489799954598_1_alg».proof.Proof.Gen.Kernel.Points
import proofs.«171427_j77489799954598_1_alg».proof.Proof.Gen.Kernel.Frame
import proofs.«171427_j77489799954598_1_alg».proof.Proof.Gen.KernelIdeal
import proofs.«171427_j77489799954598_1_alg».proof.Proof.Gen.KernelIdeal.Skeleton
import proofs.«171427_j77489799954598_1_alg».proof.Proof.Gen.KernelIdeal.Launch
import proofs.«171427_j77489799954598_1_alg».proof.Proof.Gen.KernelIdeal.Points
import proofs.«171427_j77489799954598_1_alg».proof.Proof.Gen.KernelIdeal.Frame
import proofs.«171427_j77489799954598_1_alg».proof.Proof.Gen.ReferenceIdeal
import proofs.«171427_j77489799954598_1_alg».proof.Proof.Gen.Pre_finite_inputs
import proofs.«171427_j77489799954598_1_alg».proof.Proof.Gen.ReferenceIdeal.Run
import proofs.«171427_j77489799954598_1_alg».proof.Proof.Gen.ReferenceIdeal.Read
import proofs.«171427_j77489799954598_1_alg».proof.Proof.KernelTotals
import proofs.«171427_j77489799954598_1_alg».proof.Proof.RefTotals
import Idealize.ShloMosaic.Adequacy
import Idealize.ShloMosaic.Init

noncomputable section

namespace Cert.Proof

open Idealize.ShloMosaic Idealize.ShloMosaic.TcCoe Idealize.SL.Sem Cert.BalancedEntries

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the loss and accuracy functions of arrays that agree: the kernel program by its block-by-block
    totals regrouped into one sum, the reference by its host sums read at their one index. -/
theorem algebraic : Cert.algebraic_KernelIdeal_ReferenceIdeal := by
  intro m ρ m' ρ' _ hagree
  refine ⟨fun c => lossRes (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => accRes (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Totals.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v13_eq, Cert.ReferenceIdeal.Totals.loss_eq, (hagree c).1, (hagree c).2]
  · rw [(h c).2.1, Cert.ReferenceIdeal.Read.val_main_v19_eq, Cert.ReferenceIdeal.Totals.acc_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
